-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024 : Shape := ⟨3, ![32, 1, 1024]⟩
abbrev S32x4096x1024 : Shape := ⟨3, ![32, 4096, 1024]⟩
abbrev S_ : Shape := ⟨0, ![]⟩

class Facts : Prop where
  bcast_S_S32x1x1024 : S_.BroadcastsInDim S32x1x1024 (![] : Fin 0 → Fin S32x1x1024.rank)
  reducesTo_S32x1x1024_S_d0_1_2 : S32x1x1024.ReducesTo [0, 1, 2] S_
  h_S_ : 0 < S_.numel
  bcast_S_S32x4096x1024 : S_.BroadcastsInDim S32x4096x1024 (![] : Fin 0 → Fin S32x4096x1024.rank)
  reducesTo_S32x4096x1024_S_d0_1_2 : S32x4096x1024.ReducesTo [0, 1, 2] S_

variable [Facts]

def fn {F : FTy → Type} [FloatOps F] (main_arg0 : FVec F S32x1x1024 .f32) (main_arg1 : FVec F S32x4096x1024 .f32) : IVec S_ 1 :=
  let main_v0 : FVec F S32x1x1024 .f32 := Host.absf main_arg0
  let main_cst : FVec F S_ .f32 := constant S_ .f32 0x7F800000#32
  let main_v1 : FVec F S32x1x1024 .f32 := broadcastInDim S32x1x1024 ![] bcast_S_S32x1x1024 main_cst
  let main_v2 : IVec S32x1x1024 1 := cmpf .olt main_v0 main_v1
  let main_c : IVec S_ 1 := constantI S_ 1 1#1
  let main_v3 : IVec S_ 1 := (fun x v => Host.reduce IntOp.andi x v reducesTo_S32x1x1024_S_d0_1_2 h_S_) main_v2 main_c
  let main_v4 : FVec F S32x4096x1024 .f32 := Host.absf main_arg1
  let main_cst_0 : FVec F S_ .f32 := constant S_ .f32 0x7F800000#32
  let main_v5 : FVec F S32x4096x1024 .f32 := broadcastInDim S32x4096x1024 ![] bcast_S_S32x4096x1024 main_cst_0
  let main_v6 : IVec S32x4096x1024 1 := cmpf .olt main_v4 main_v5
  let main_c_1 : IVec S_ 1 := constantI S_ 1 1#1
  let main_v7 : IVec S_ 1 := (fun x v => Host.reduce IntOp.andi x v reducesTo_S32x4096x1024_S_d0_1_2 h_S_) main_v6 main_c_1
  let main_v8 : IVec S_ 1 := andi main_v3 main_v7
  main_v8
-- ==== Kernel.lean ====
abbrev S32x1x1024 : Shape := ⟨3, ![32, 1, 1024]⟩
abbrev S32x4096x1024 : Shape := ⟨3, ![32, 4096, 1024]⟩
abbrev S32x1x4096 : Shape := ⟨3, ![32, 1, 4096]⟩
abbrev S1x1x1024 : Shape := ⟨3, ![1, 1, 1024]⟩
abbrev S1x4096x1024 : Shape := ⟨3, ![1, 4096, 1024]⟩
abbrev S1x1x4096 : Shape := ⟨3, ![1, 1, 4096]⟩
abbrev S1x1 : Shape := ⟨2, ![1, 1]⟩
abbrev S1x1x1 : Shape := ⟨3, ![1, 1, 1]⟩

abbrev nBuf : Space → Nat
  | .hbm => 4
  | .vmem => 8
  | .smem => 0
  | _ => 0

abbrev bufTy : (tb : Table) → Fin (tcTables nBuf tb) → BufTy
  | .hbm, ⟨0, _⟩ => ⟨S32x1x1024, .f32⟩
  | .hbm, ⟨1, _⟩ => ⟨S32x4096x1024, .f32⟩
  | .hbm, ⟨2, _⟩ => ⟨S32x1x1024, .f32⟩
  | .hbm, ⟨3, _⟩ => ⟨S32x1x4096, .f32⟩
  | .local _ .vmem, ⟨0, _⟩ => ⟨S1x1x1024, .f32⟩
  | .local _ .vmem, ⟨1, _⟩ => ⟨S1x1x1024, .f32⟩
  | .local _ .vmem, ⟨2, _⟩ => ⟨S1x4096x1024, .f32⟩
  | .local _ .vmem, ⟨3, _⟩ => ⟨S1x4096x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1x1024_S1x1x1024_0_0_0 : ∀ a, (![0, 0, 0] : Fin 3 → Nat) a + S1x1x1024.size a ≤ S1x1x1024.size a
  h_S1x1x1024 : 0 < S1x1x1024.numel
  bitsLt_bf16_f32 : FTy.bits .bf16 < FTy.bits .f32
  inb_S1x4096x1024_S1x4096x1024_0_0_0 : ∀ a, (![0, 0, 0] : Fin 3 → Nat) a + S1x4096x1024.size a ≤ S1x4096x1024.size a
  h_S1x4096x1024 : 0 < S1x4096x1024.numel
  reduces_S1x1x4096_S1x1 : S1x1x4096.Reduces [2] S1x1
  shapeCasts_S1x1_S1x1x1 : S1x1.ShapeCasts S1x1x1
  broadcasts_S1x1x1_S1x1x4096 : S1x1x1.Broadcasts S1x1x4096
  inb_S1x1x4096_S1x1x4096_0_0_0 : ∀ a, (![0, 0, 0] : Fin 3 → Nat) a + S1x1x4096.size a ≤ S1x1x4096.size a
  h_S1x1x4096 : 0 < S1x1x4096.numel
  dot_S1x1x1024_S1x4096x1024_S1x1x4096_2_2_1_1_0_0_wf : DotDims.WF S1x1x1024 S1x4096x1024 S1x1x4096 [2] [2] [1] [1] [0] [0]
  dot_S1x1x4096_S1x4096x1024_S1x1x1024_2_1_1_2_0_0_wf : DotDims.WF S1x1x4096 S1x4096x1024 S1x1x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S32x1x1024.size a
  hwx0_0 : ∀ i : grid0.Coords, EltTy.bits .f32 = 32 ∨ (Rect.block (s := S32x1x1024) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1024.size a ≤ S32x4096x1024.size a
  hwx0_1 : ∀ i : grid0.Coords, EltTy.bits .f32 = 32 ∨ (Rect.block (s := S32x4096x1024) S1x4096x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S32x1x1024.size a
  hwx0_2 : ∀ i : grid0.Coords, EltTy.bits .f32 = 32 ∨ (Rect.block (s := S32x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S32x1x4096.size a
  hwx0_3 : ∀ i : grid0.Coords, EltTy.bits .f32 = 32 ∨ (Rect.block (s := S32x1x4096) S1x1x4096.size (cc0_transform_3 i) (hinb0_3 i)).WholeWords (EltTy.packing .f32)

variable [Facts₀]

def dot_S1x1x1024_S1x4096x1024_S1x1x4096_2_2_1_1_0_0 : DotDims S1x1x1024 S1x4096x1024 S1x1x4096 where
  lhsContracting := [2]
  rhsContracting := [2]
  lhsNonContracting := [1]
  rhsNonContracting := [1]
  lhsBatch := [0]
  rhsBatch := [0]
  wf := dot_S1x1x1024_S1x4096x1024_S1x1x4096_2_2_1_1_0_0_wf
def dot_S1x1x4096_S1x4096x1024_S1x1x1024_2_1_1_2_0_0 : DotDims S1x1x4096 S1x4096x1024 S1x1x1024 where
  lhsContracting := [2]
  rhsContracting := [1]
  lhsNonContracting := [1]
  rhsNonContracting := [2]
  lhsBatch := [0]
  rhsBatch := [0]
  wf := dot_S1x1x4096_S1x4096x1024_S1x1x1024_2_1_1_2_0_0_wf

abbrev win0_0 : Pipeline.Window sig grid0 :=
  Pipeline.Window.ofSpec (Memref.whole main_arg0) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1x1024 : Shape := ⟨3, ![32, 1, 1024]⟩
abbrev S32x4096x1024 : Shape := ⟨3, ![32, 4096, 1024]⟩
abbrev S32x1x4096 : Shape := ⟨3, ![32, 1, 4096]⟩
abbrev S_ : Shape := ⟨0, ![]⟩
abbrev S32x1 : Shape := ⟨2, ![32, 1]⟩
abbrev S32x1x1 : Shape := ⟨3, ![32, 1, 1]⟩

abbrev nBuf : Space → Nat
  | .hbm => 19
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x4096x1024, .f32⟩
  | .hbm, ⟨2, _⟩ => ⟨S32x1x4096, .f32⟩
  | .hbm, ⟨3, _⟩ => ⟨S_, .f32⟩
  | .hbm, ⟨4, _⟩ => ⟨S32x1, .f32⟩
  | .hbm, ⟨5, _⟩ => ⟨S_, .f32⟩
  | .hbm, ⟨6, _⟩ => ⟨S32x1, .f32⟩
  | .hbm, ⟨7, _⟩ => ⟨S32x1, .f32⟩
  | .hbm, ⟨8, _⟩ => ⟨S32x1x1, .f32⟩
  | .hbm, ⟨9, _⟩ => ⟨S32x1x4096, .f32⟩
  | .hbm, ⟨10, _⟩ => ⟨S32x1x4096, .f32⟩
  | .hbm, ⟨11, _⟩ => ⟨S32x1x4096, .f32⟩
  | .hbm, ⟨12, _⟩ => ⟨S_, .f32⟩
  | .hbm, ⟨13, _⟩ => ⟨S32x1, .f32⟩
  | .hbm, ⟨14, _⟩ => ⟨S32x1x1, .f32⟩
  | .hbm, ⟨15, _⟩ => ⟨S32x1x4096, .f32⟩
  | .hbm, ⟨16, _⟩ => ⟨S32x1x4096, .f32⟩
  | .hbm, ⟨17, _⟩ => ⟨S32x1x1024, .f32⟩
  | .hbm, ⟨18, _⟩ => ⟨S32x1x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S32x1x4096_S32x1_d2 : S32x1x4096.ReducesTo [2] S32x1
  h_S_ : 0 < S_.numel
  bcast_S_S32x1 : S_.BroadcastsInDim S32x1 (![] : Fin 0 → Fin S32x1.rank)
  bcast_S32x1_S32x1x1_0_1 : S32x1.BroadcastsInDim S32x1x1 (![0, 1] : Fin 2 → Fin S32x1x1.rank)
  bcast_S32x1x1_S32x1x4096_0_1_2 : S32x1x1.BroadcastsInDim S32x1x4096 (![0, 1, 2] : Fin 3 → Fin S32x1x4096.rank)
  dot_S32x1x1024_S32x4096x1024_S32x1x4096_2_2_1_1_0_0_wf : DotDims.WF S32x1x1024 S32x4096x1024 S32x1x4096 [2] [2] [1] [1] [0] [0]
  dot_S32x1x4096_S32x4096x1024_S32x1x1024_2_1_1_2_0_0_wf : DotDims.WF S32x1x4096 S32x4096x1024 S32x1x1024 [2] [1] [1] [2] [0] [0]

variable [Facts₀]

def dot_S32x1x1024_S32x4096x1024_S32x1x4096_2_2_1_1_0_0 : DotDims S32x1x1024 S32x4096x1024 S32x1x4096 where
  lhsContracting := [2]
  rhsContracting := [2]
  lhsNonContracting := [1]
  rhsNonContracting := [1]
  lhsBatch := [0]
  rhsBatch := [0]
  wf := dot_S32x1x1024_S32x4096x1024_S32x1x4096_2_2_1_1_0_0_wf
def dot_S32x1x4096_S32x4096x1024_S32x1x1024_2_1_1_2_0_0 : DotDims S32x1x4096 S32x4096x1024 S32x1x1024 where
  lhsContracting := [2]
  rhsContracting := [1]
  lhsNonContracting := [1]
  rhsNonContracting := [2]
  lhsBatch := [0]
  rhsBatch := [0]
  wf := dot_S32x1x4096_S32x4096x1024_S32x1x1024_2_1_1_2_0_0_wf

class Facts : Prop extends Facts₀ where

variable [Facts]
-- ==== Proof.Attend.lean ====
/-
  One query row attending over a bank of key rows, on the extended reals.

  For scores `σ : Fin S → EReal`:
    peakOf σ     = max ⊥ (max over s of σ s)          the largest score (the fold starts at the pattern of −∞,
                                                       and the result is joined with it once more)
    liftOf σ s   = exp (σ s − peakOf σ)
    weightOf σ s = liftOf σ s / ∑ s', liftOf σ s'      the softmax weight of entry s
  and for a query `q : Fin H → EReal` and rows `k : Fin S → Fin H → EReal`:
    score q k s  = ∑ h, q h · k s h                    the inner product with row s
    weight q k   = weightOf (score q k)
    blend q k h  = tanh (∑ s, weight q k s · k s h)    the weighted mix of the rows, squashed
  Both programs compute exactly these terms, batch entry by batch entry; nothing here needs the inputs finite,
  since the two sides are the SAME expression and only the commutativity of `+` and `max` is used to meet them.
-/
import Idealize.ShloMosaic.PureOps.Ideal
import Idealize.ShloMosaic.Lib.ValueIdx

noncomputable section

open scoped BigOperators

namespace Cert.Attend

open Idealize.ShloMosaic

/-- The extended real the f32 pattern of −∞ denotes; it is never evaluated: both programs carry the same word. -/
abbrev floor : EReal := Ideal.ofBits .f32 0xFF800000#32

variable {S H : Nat}

/-- The largest score, folded from the floor, and joined with the floor once more (as the lowered softmax does). -/
def peakOf (σ : Fin S → EReal) : EReal := max floor ((Finset.univ : Finset (Fin S)).fold max floor σ)

/-- The exponential of a score's distance below the peak. -/
def liftOf (σ : Fin S → EReal) (s : Fin S) : EReal := Ideal.exp (σ s - peakOf σ)

/-- The softmax weight of entry `s`. -/
def weightOf (σ : Fin S → EReal) (s : Fin S) : EReal := Ideal.div (liftOf σ s) (∑ s' : Fin S, liftOf σ s')

/-- The inner product of the query with key row `s`. -/
def score (q : Fin H → EReal) (k : Fin S → Fin H → EReal) (s : Fin S) : EReal := ∑ h : Fin H, q h * k s h

/-- The softmax weight the query gives row `s`. -/
def weight (q : Fin H → EReal) (k : Fin S → Fin H → EReal) (s : Fin S) : EReal := weightOf (score q k) s

/-- Coordinate `h` of the weighted mix of the rows, through tanh. -/
def blend (q : Fin H → EReal) (k : Fin S → Fin H → EReal) (h : Fin H) : EReal :=
  Ideal.tanh (∑ s : Fin S, weight q k s * k s h)

/-! ## The two result arrays as functions of the two argument arrays (32 batch entries, 4096 rows of 1024) -/

open Idealize.ShloMosaic.ValueIdx

/-- The attention weights: entry (b, ·, s) is the softmax weight batch entry b's query row gives its key row s. -/
def weights (a0 : (⟨3, ![32, 1, 1024]⟩ : Shape).Idx → EReal) (a1 : (⟨3, ![32, 4096, 1024]⟩ : Shape).Idx → EReal) :
    (⟨3, ![32, 1, 4096]⟩ : Shape).Idx → EReal :=
  fun i => weight (fun h : Fin 1024 => a0 (ix3 (i 0 : Fin 32) 0 h)) (fun (s : Fin 4096) (h : Fin 1024) => a1 (ix3 (i 0 : Fin 32) s h)) (i 2 : Fin 4096)

/-- The output: entry (b, ·, h) is the weighted mix of batch entry b's key rows at h, through tanh. -/
def mixed (a0 : (⟨3, ![32, 1, 1024]⟩ : Shape).Idx → EReal) (a1 : (⟨3, ![32, 4096, 1024]⟩ : Shape).Idx → EReal) :
    (⟨3, ![32, 1, 1024]⟩ : Shape).Idx → EReal :=
  fun i => blend (fun h : Fin 1024 => a0 (ix3 (i 0 : Fin 32) 0 h)) (fun (s : Fin 4096) (h : Fin 1024) => a1 (ix3 (i 0 : Fin 32) s h)) (i 2 : Fin 1024)

theorem weights_apply (a0 : (⟨3, ![32, 1, 1024]⟩ : Shape).Idx → EReal) (a1 : (⟨3, ![32, 4096, 1024]⟩ : Shape).Idx → EReal)
    (b : Fin 32) (a : Fin 1) (s : Fin 4096) :
    weights a0 a1 (ix3 b a s) = weight (fun h : Fin 1024 => a0 (ix3 b 0 h)) (fun (s : Fin 4096) (h : Fin 1024) => a1 (ix3 b s h)) s := rfl

theorem mixed_apply (a0 : (⟨3, ![32, 1, 1024]⟩ : Shape).Idx → EReal) (a1 : (⟨3, ![32, 4096, 1024]⟩ : Shape).Idx → EReal)
    (b : Fin 32) (a : Fin 1) (h : Fin 1024) :
    mixed a0 a1 (ix3 b a h) = blend (fun h : Fin 1024 => a0 (ix3 b 0 h)) (fun (s : Fin 4096) (h : Fin 1024) => a1 (ix3 b s h)) h := rfl

end Cert.Attend

end
-- ==== Proof.KernelRow.lean ====
/-
  The kernel body's two stored rows, entry by entry, at the extended reals.

  At one grid point the body holds one query row `v0` (1 × 1 × 1024) and one block of key rows `v2` (1 × 4096 × 1024). It
  forms the 4096 scores `∑ h, v0 h · v2 s h` (a matrix product into a zero accumulator; the two roundings to bf16 are the
  identity here), takes the softmax of that row along the lanes (largest entry, exponentials of the distances below it, their
  sum, the quotient) and stores it; then multiplies the softmax row into the key block, applies tanh and stores that. Read at an
  index, the first stored row is `Attend.weight` and the second `Attend.blend` of the block's query row and key rows.
-/
import proofs.«161140_j1580547970581_1_alg».proof.Proof.Gen.KernelIdeal.Skeleton
import proofs.«161140_j1580547970581_1_alg».proof.Proof.Attend
import Idealize.ShloMosaic.Lib.Pipeline.Value
import Idealize.ShloMosaic.Lib.ValueIdx
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.Attend

/-! ## Reductions along the lanes, and a [1,1] value laid along them -/

/-- A value of shape [1,1], cast to [1,1,1] and laid along 4096 lanes, is that one value at every lane. -/
theorem spread_apply {α : Type} (Y : S1x1.Idx → α) (h1 : S1x1.ShapeCasts S1x1x1) (h2 : S1x1x1.Broadcasts S1x1x4096)
    (i : S1x1x4096.Idx) : broadcastTo S1x1x4096 (shapeCast S1x1x1 Y h1) h2 i = Y (ix2 0 0) := by
  refine (broadcastTo_apply _ h2 i (ix3 0 0 0) (fun a => ?_)).trans ?_
  · match a with
    | ⟨0, _⟩ => show (0 : Nat) = if (1 : Nat) = 1 then 0 else _; rw [if_pos rfl]
    | ⟨1, _⟩ => show (0 : Nat) = if (1 : Nat) = 1 then 0 else _; rw [if_pos rfl]
    | ⟨2, _⟩ => show (0 : Nat) = if (1 : Nat) = 1 then 0 else _; rw [if_pos rfl]
  · exact shapeCast_apply Y h1 (ix3 0 0 0) (ix2 0 0) (by
      rw [Shape.rowMajor_val_two, Shape.rowMajor_val_three]; rfl)

/-- The largest entry along the lanes, folded from the floor. -/
theorem laneMax_apply (X : FVec Ideal S1x1x4096 .f32) (hφ : FKind.Formats .f32)
    (hacc : (0xFF800000#32 : BitVec 32) = FKind.maximumf.neutral .f32 hφ) (a b : Fin 1) :
    multiReduction .maximumf [2] S1x1 X 0xFF800000#32 reduces_S1x1x4096_S1x1 hφ hacc (ix2 a b)
      = (Finset.univ : Finset (Fin 4096)).fold max floor (fun s => X (ix3 0 0 s)) := by
  refine (Ideal.multiReduction_maximumf_single X _ reduces_S1x1x4096_S1x1 hφ hacc (ix2 a b)).trans ?_
  refine congrArg (fun f => (Finset.univ : Finset (Fin 4096)).fold max floor f) (funext fun s => ?_)
  refine congrArg X (funext fun d => Fin.ext ?_)
  match d with
  | ⟨0, _⟩ => exact Fin.val_eq_zero a
  | ⟨1, _⟩ => exact Fin.val_eq_zero b
  | ⟨2, _⟩ => rfl

/-- The sum of the entries along the lanes. -/
theorem laneSum_apply (X : FVec Ideal S1x1x4096 .f32) (hφ : FKind.Formats .f32)
    (hacc : (0x00000000#32 : BitVec 32) = FKind.add.neutral .f32 hφ) (a b : Fin 1) :
    multiReduction .add [2] S1x1 X 0x00000000#32 reduces_S1x1x4096_S1x1 hφ hacc (ix2 a b)
      = ∑ s : Fin 4096, X (ix3 0 0 s) := by
  refine (Ideal.multiReduction_add_single X _ reduces_S1x1x4096_S1x1 hφ hacc (ix2 a b)).trans ?_
  refine Finset.sum_congr rfl fun s _ => ?_
  refine congrArg X (funext fun d => Fin.ext ?_)
  match d with
  | ⟨0, _⟩ => exact Fin.val_eq_zero a
  | ⟨1, _⟩ => exact Fin.val_eq_zero b
  | ⟨2, _⟩ => rfl

/-! ## The two matrix products, read at an index -/

theorem scoreL_0 (i : S1x1x4096.Idx) (q : dot_S1x1x1024_S1x4096x1024_S1x1x4096_2_2_1_1_0_0.contr.Idx) :
    (dot_S1x1x1024_S1x4096x1024_S1x1x4096_2_2_1_1_0_0.lhsIdx i q 0).val = (i 0).val := by
  unfold DotDims.lhsIdx
  rw [dif_pos (show (0 : Fin S1x1x1024.rank) ∈ dot_S1x1x1024_S1x4096x1024_S1x1x4096_2_2_1_1_0_0.lhsBatch by decide)]
  rfl
theorem scoreL_1 (i : S1x1x4096.Idx) (q : dot_S1x1x1024_S1x4096x1024_S1x1x4096_2_2_1_1_0_0.contr.Idx) :
    (dot_S1x1x1024_S1x4096x1024_S1x1x4096_2_2_1_1_0_0.lhsIdx i q 1).val = (i 1).val := by
  unfold DotDims.lhsIdx
  rw [dif_neg (show ¬(1 : Fin S1x1x1024.rank) ∈ dot_S1x1x1024_S1x4096x1024_S1x1x4096_2_2_1_1_0_0.lhsBatch by decide), dif_pos (show (1 : Fin S1x1x1024.rank) ∈ dot_S1x1x1024_S1x4096x1024_S1x1x4096_2_2_1_1_0_0.lhsNonContracting by decide)]
  rfl
theorem scoreL_2 (i : S1x1x4096.Idx) (q : dot_S1x1x1024_S1x4096x1024_S1x1x4096_2_2_1_1_0_0.contr.Idx) :
    (dot_S1x1x1024_S1x4096x1024_S1x1x4096_2_2_1_1_0_0.lhsIdx i q 2).val = (q ⟨0, by decide⟩).val :=
  dot_S1x1x1024_S1x4096x1024_S1x1x4096_2_2_1_1_0_0.lhsIdx_val_of_single rfl i q
theorem scoreR_0 (i : S1x1x4096.Idx) (q : dot_S1x1x1024_S1x4096x1024_S1x1x4096_2_2_1_1_0_0.contr.Idx) :
    (dot_S1x1x1024_S1x4096x1024_S1x1x4096_2_2_1_1_0_0.rhsIdx i q 0).val = (i 0).val := by
  unfold DotDims.rhsIdx
  rw [dif_pos (show (0 : Fin S1x4096x1024.rank) ∈ dot_S1x1x1024_S1x4096x1024_S1x1x4096_2_2_1_1_0_0.rhsBatch by decide)]
  rfl
theorem scoreR_1 (i : S1x1x4096.Idx) (q : dot_S1x1x1024_S1x4096x1024_S1x1x4096_2_2_1_1_0_0.contr.Idx) :
    (dot_S1x1x1024_S1x4096x1024_S1x1x4096_2_2_1_1_0_0.rhsIdx i q 1).val = (i 2).val := by
  unfold DotDims.rhsIdx
  rw [dif_neg (show ¬(1 : Fin S1x4096x1024.rank) ∈ dot_S1x1x1024_S1x4096x1024_S1x1x4096_2_2_1_1_0_0.rhsBatch by decide), dif_pos (show (1 : Fin S1x4096x1024.rank) ∈ dot_S1x1x1024_S1x4096x1024_S1x1x4096_2_2_1_1_0_0.rhsNonContracting by decide)]
  rfl
theorem scoreR_2 (i : S1x1x4096.Idx) (q : dot_S1x1x1024_S1x4096x1024_S1x1x4096_2_2_1_1_0_0.contr.Idx) :
    (dot_S1x1x1024_S1x4096x1024_S1x1x4096_2_2_1_1_0_0.rhsIdx i q 2).val = (q ⟨0, by decide⟩).val :=
  dot_S1x1x1024_S1x4096x1024_S1x1x4096_2_2_1_1_0_0.rhsIdx_val_of_single rfl i q

/-- The first product into a zero accumulator: entry `s` is the inner product of the one query row with key row `s`. -/
theorem scores_apply (l : FVec Ideal S1x1x1024 .bf16) (r : FVec Ideal S1x4096x1024 .bf16) (a b : Fin 1) (s : Fin 4096) :
    matmul dot_S1x1x1024_S1x4096x1024_S1x1x4096_2_2_1_1_0_0 none l r (constant S1x1x4096 .f32 0x00000000#32) (ix3 a b s)
      = ∑ h : Fin 1024, l (ix3 0 0 h) * r (ix3 0 s h) := by
  refine (Ideal.matmul_constant_zero_apply dot_S1x1x1024_S1x4096x1024_S1x1x4096_2_2_1_1_0_0 none l r (ix3 a b s)).trans ?_
  rw [← Equiv.sum_comp (ValueIdx.contrEquiv1 dot_S1x1x1024_S1x4096x1024_S1x1x4096_2_2_1_1_0_0 1024 rfl rfl).symm]
  refine Finset.sum_congr rfl fun k _ => ?_
  have hk := ValueIdx.contrEquiv1_symm_val dot_S1x1x1024_S1x4096x1024_S1x1x4096_2_2_1_1_0_0 1024 rfl rfl k
  have el : dot_S1x1x1024_S1x4096x1024_S1x1x4096_2_2_1_1_0_0.lhsIdx (ix3 a b s) ((ValueIdx.contrEquiv1 dot_S1x1x1024_S1x4096x1024_S1x1x4096_2_2_1_1_0_0 1024 rfl rfl).symm k) = ix3 0 0 k := funext fun d => Fin.ext (by
    match d with
    | ⟨0, _⟩ => exact (scoreL_0 _ _).trans (Fin.val_eq_zero a)
    | ⟨1, _⟩ => exact (scoreL_1 _ _).trans (Fin.val_eq_zero b)
    | ⟨2, _⟩ => exact (scoreL_2 _ _).trans hk)
  have er : dot_S1x1x1024_S1x4096x1024_S1x1x4096_2_2_1_1_0_0.rhsIdx (ix3 a b s) ((ValueIdx.contrEquiv1 dot_S1x1x1024_S1x4096x1024_S1x1x4096_2_2_1_1_0_0 1024 rfl rfl).symm k) = ix3 0 s k := funext fun d => Fin.ext (by
    match d with
    | ⟨0, _⟩ => exact (scoreR_0 _ _).trans (Fin.val_eq_zero a)
    | ⟨1, _⟩ => exact scoreR_1 _ _
    | ⟨2, _⟩ => exact (scoreR_2 _ _).trans hk)
  rw [el, er]

theorem mixL_0 (i : S1x1x1024.Idx) (q : dot_S1x1x4096_S1x4096x1024_S1x1x1024_2_1_1_2_0_0.contr.Idx) :
    (dot_S1x1x4096_S1x4096x1024_S1x1x1024_2_1_1_2_0_0.lhsIdx i q 0).val = (i 0).val := by
  unfold DotDims.lhsIdx
  rw [dif_pos (show (0 : Fin S1x1x4096.rank) ∈ dot_S1x1x4096_S1x4096x1024_S1x1x1024_2_1_1_2_0_0.lhsBatch by decide)]
  rfl
theorem mixL_1 (i : S1x1x1024.Idx) (q : dot_S1x1x4096_S1x4096x1024_S1x1x1024_2_1_1_2_0_0.contr.Idx) :
    (dot_S1x1x4096_S1x4096x1024_S1x1x1024_2_1_1_2_0_0.lhsIdx i q 1).val = (i 1).val := by
  unfold DotDims.lhsIdx
  rw [dif_neg (show ¬(1 : Fin S1x1x4096.rank) ∈ dot_S1x1x4096_S1x4096x1024_S1x1x1024_2_1_1_2_0_0.lhsBatch by decide), dif_pos (show (1 : Fin S1x1x4096.rank) ∈ dot_S1x1x4096_S1x4096x1024_S1x1x1024_2_1_1_2_0_0.lhsNonContracting by decide)]
  rfl
theorem mixL_2 (i : S1x1x1024.Idx) (q : dot_S1x1x4096_S1x4096x1024_S1x1x1024_2_1_1_2_0_0.contr.Idx) :
    (dot_S1x1x4096_S1x4096x1024_S1x1x1024_2_1_1_2_0_0.lhsIdx i q 2).val = (q ⟨0, by decide⟩).val :=
  dot_S1x1x4096_S1x4096x1024_S1x1x1024_2_1_1_2_0_0.lhsIdx_val_of_single rfl i q
theorem mixR_0 (i : S1x1x1024.Idx) (q : dot_S1x1x4096_S1x4096x1024_S1x1x1024_2_1_1_2_0_0.contr.Idx) :
    (dot_S1x1x4096_S1x4096x1024_S1x1x1024_2_1_1_2_0_0.rhsIdx i q 0).val = (i 0).val := by
  unfold DotDims.rhsIdx
  rw [dif_pos (show (0 : Fin S1x4096x1024.rank) ∈ dot_S1x1x4096_S1x4096x1024_S1x1x1024_2_1_1_2_0_0.rhsBatch by decide)]
  rfl
theorem mixR_1 (i : S1x1x1024.Idx) (q : dot_S1x1x4096_S1x4096x1024_S1x1x1024_2_1_1_2_0_0.contr.Idx) :
    (dot_S1x1x4096_S1x4096x1024_S1x1x1024_2_1_1_2_0_0.rhsIdx i q 1).val = (q ⟨0, by decide⟩).val :=
  dot_S1x1x4096_S1x4096x1024_S1x1x1024_2_1_1_2_0_0.rhsIdx_val_of_single rfl i q
theorem mixR_2 (i : S1x1x1024.Idx) (q : dot_S1x1x4096_S1x4096x1024_S1x1x1024_2_1_1_2_0_0.contr.Idx) :
    (dot_S1x1x4096_S1x4096x1024_S1x1x1024_2_1_1_2_0_0.rhsIdx i q 2).val = (i 2).val := by
  unfold DotDims.rhsIdx
  rw [dif_neg (show ¬(2 : Fin S1x4096x1024.rank) ∈ dot_S1x1x4096_S1x4096x1024_S1x1x1024_2_1_1_2_0_0.rhsBatch by decide), dif_pos (show (2 : Fin S1x4096x1024.rank) ∈ dot_S1x1x4096_S1x4096x1024_S1x1x1024_2_1_1_2_0_0.rhsNonContracting by decide)]
  rfl

/-- The second product into a zero accumulator: entry `h` is the sum over the rows of the row's weight times its entry `h`. -/
theorem mix_apply (l : FVec Ideal S1x1x4096 .bf16) (r : FVec Ideal S1x4096x1024 .bf16) (a b : Fin 1) (h : Fin 1024) :
    matmul dot_S1x1x4096_S1x4096x1024_S1x1x1024_2_1_1_2_0_0 none l r (constant S1x1x1024 .f32 0x00000000#32) (ix3 a b h)
      = ∑ s : Fin 4096, l (ix3 0 0 s) * r (ix3 0 s h) := by
  refine (Ideal.matmul_constant_zero_apply dot_S1x1x4096_S1x4096x1024_S1x1x1024_2_1_1_2_0_0 none l r (ix3 a b h)).trans ?_
  rw [← Equiv.sum_comp (ValueIdx.contrEquiv1 dot_S1x1x4096_S1x4096x1024_S1x1x1024_2_1_1_2_0_0 4096 rfl rfl).symm]
  refine Finset.sum_congr rfl fun k _ => ?_
  have hk := ValueIdx.contrEquiv1_symm_val dot_S1x1x4096_S1x4096x1024_S1x1x1024_2_1_1_2_0_0 4096 rfl rfl k
  have el : dot_S1x1x4096_S1x4096x1024_S1x1x1024_2_1_1_2_0_0.lhsIdx (ix3 a b h) ((ValueIdx.contrEquiv1 dot_S1x1x4096_S1x4096x1024_S1x1x1024_2_1_1_2_0_0 4096 rfl rfl).symm k) = ix3 0 0 k := funext fun d => Fin.ext (by
    match d with
    | ⟨0, _⟩ => exact (mixL_0 _ _).trans (Fin.val_eq_zero a)
    | ⟨1, _⟩ => exact (mixL_1 _ _).trans (Fin.val_eq_zero b)
    | ⟨2, _⟩ => exact (mixL_2 _ _).trans hk)
  have er : dot_S1x1x4096_S1x4096x1024_S1x1x1024_2_1_1_2_0_0.rhsIdx (ix3 a b h) ((ValueIdx.contrEquiv1 dot_S1x1x4096_S1x4096x1024_S1x1x1024_2_1_1_2_0_0 4096 rfl rfl).symm k) = ix3 0 k h := funext fun d => Fin.ext (by
    match d with
    | ⟨0, _⟩ => exact (mixR_0 _ _).trans (Fin.val_eq_zero a)
    | ⟨1, _⟩ => exact (mixR_1 _ _).trans hk
    | ⟨2, _⟩ => exact mixR_2 _ _)
  rw [el, er]

/-! ## The body's softmax over the lanes, stage by stage -/

/-- The row's largest entry, as the body computes it, laid along the lanes. -/
def peakV (X : FVec Ideal S1x1x4096 .f32) : FVec Ideal S1x1x4096 .f32 :=
  broadcastTo S1x1x4096 (shapeCast S1x1x1 (maximumf (broadcast S1x1 (Scalar.ofBits .f32 0xFF800000#32))
    (multiReduction .maximumf [2] S1x1 X 0xFF800000#32 reduces_S1x1x4096_S1x1 (.inl rfl) rfl)) shapeCasts_S1x1_S1x1x1) broadcasts_S1x1x1_S1x1x4096

/-- The exponentials of the entries' distances below it. -/
def liftV (X : FVec Ideal S1x1x4096 .f32) : FVec Ideal S1x1x4096 .f32 := exp (subf X (peakV X))

/-- Their sum, laid along the lanes. -/
def totalV (X : FVec Ideal S1x1x4096 .f32) : FVec Ideal S1x1x4096 .f32 :=
  broadcastTo S1x1x4096 (shapeCast S1x1x1 (multiReduction .add [2] S1x1 (liftV X) 0x00000000#32 reduces_S1x1x4096_S1x1 (.inl rfl) rfl)
    shapeCasts_S1x1_S1x1x1) broadcasts_S1x1x1_S1x1x4096

/-- The quotient: the softmax of the row. -/
def softmaxV (X : FVec Ideal S1x1x4096 .f32) : FVec Ideal S1x1x4096 .f32 := divf (liftV X) (totalV X)

/-- The scores: the query block against the key block. -/
def scoresV (v0 : Vec Ideal S1x1x1024 .f32) (v2 : Vec Ideal S1x4096x1024 .f32) : FVec Ideal S1x1x4096 .f32 :=
  matmul dot_S1x1x1024_S1x4096x1024_S1x1x4096_2_2_1_1_0_0 none (truncf .bf16 v0 bitsLt_bf16_f32) (k0_pay1 v2) (constant S1x1x4096 .f32 0x00000000#32)

/-- The stored attention row is the softmax of the scores. -/
theorem pay2_eq (v0 : Vec Ideal S1x1x1024 .f32) (v2 : Vec Ideal S1x4096x1024 .f32) :
    k0_pay2 v0 v2 = softmaxV (scoresV v0 v2) := rfl

/-- The stored output row is tanh of the second product, of the attention row with the key block. -/
theorem pay3_eq (v0 : Vec Ideal S1x1x1024 .f32) (v2 : Vec Ideal S1x4096x1024 .f32) :
    k0_pay3 v0 v2 = tanh (matmul dot_S1x1x4096_S1x4096x1024_S1x1x1024_2_1_1_2_0_0 none (truncf .bf16 (k0_pay2 v0 v2) bitsLt_bf16_f32) (k0_pay1 v2) (constant S1x1x1024 .f32 0x00000000#32)) := rfl

theorem peakV_apply (X : FVec Ideal S1x1x4096 .f32) (i : S1x1x4096.Idx) :
    peakV X i = peakOf (fun s : Fin 4096 => X (ix3 0 0 s)) := by
  unfold peakV peakOf
  refine (spread_apply _ _ _ i).trans ?_
  exact congrArg (max floor) (laneMax_apply X _ _ 0 0)

theorem liftV_apply (X : FVec Ideal S1x1x4096 .f32) (i : S1x1x4096.Idx) :
    liftV X i = Ideal.exp (X i - peakOf (fun s : Fin 4096 => X (ix3 0 0 s))) := by
  unfold liftV
  exact congrArg (fun z => Ideal.exp (X i - z)) (peakV_apply X i)

theorem totalV_apply (X : FVec Ideal S1x1x4096 .f32) (i : S1x1x4096.Idx) :
    totalV X i = ∑ s : Fin 4096, liftOf (fun s : Fin 4096 => X (ix3 0 0 s)) s := by
  unfold totalV
  refine (spread_apply _ _ _ i).trans ((laneSum_apply _ _ _ 0 0).trans ?_)
  exact Finset.sum_congr rfl fun s _ => liftV_apply X (ix3 0 0 s)

theorem softmaxV_apply (X : FVec Ideal S1x1x4096 .f32) (a b : Fin 1) (s : Fin 4096) :
    softmaxV X (ix3 a b s) = weightOf (fun s : Fin 4096 => X (ix3 0 0 s)) s := by
  obtain rfl : a = 0 := Subsingleton.elim _ _
  obtain rfl : b = 0 := Subsingleton.elim _ _
  unfold softmaxV weightOf
  exact congrArg₂ Ideal.div (liftV_apply X (ix3 0 0 s)) (totalV_apply X (ix3 0 0 s))

/-! ## The two stored rows, entry by entry -/

/-- Entry `s` of the stored attention row: the softmax weight the block's query row gives its key row `s`. -/
theorem pay2_apply (v0 : Vec Ideal S1x1x1024 .f32) (v2 : Vec Ideal S1x4096x1024 .f32) (a b : Fin 1) (s : Fin 4096) :
    k0_pay2 v0 v2 (ix3 a b s) = weight (fun h : Fin 1024 => v0 (ix3 0 0 h)) (fun (s : Fin 4096) (h : Fin 1024) => v2 (ix3 0 s h)) s := by
  rw [pay2_eq]
  refine (softmaxV_apply (scoresV v0 v2) a b s).trans ?_
  unfold weight
  refine congrArg (fun σ => weightOf σ s) (funext fun s' => ?_)
  exact scores_apply _ _ 0 0 s'

/-- Entry `h` of the stored output row: the weighted mix of the key rows at `h`, through tanh. -/
theorem pay3_apply (v0 : Vec Ideal S1x1x1024 .f32) (v2 : Vec Ideal S1x4096x1024 .f32) (a b : Fin 1) (h : Fin 1024) :
    k0_pay3 v0 v2 (ix3 a b h) = blend (fun h : Fin 1024 => v0 (ix3 0 0 h)) (fun (s : Fin 4096) (h : Fin 1024) => v2 (ix3 0 s h)) h := by
  rw [pay3_eq]
  unfold blend
  refine congrArg Ideal.tanh ?_
  refine (mix_apply _ _ a b h).trans ?_
  refine Finset.sum_congr rfl fun s _ => ?_
  exact congrArg (· * v2 (ix3 0 s h)) (pay2_apply v0 v2 0 0 s)

end Cert.KernelIdeal.Row

end
-- ==== Proof.KernelWhole.lean ====
/-
  From what each grid point writes back to the two result arrays as whole functions of the argument arrays.

  The grid has 32 points, one per batch entry. At point t every window's block sits at block index (t, 0, 0): the query
  block is query row t, the key block is the 4096 key rows of batch entry t, and the two output blocks are row t of the two
  result arrays. So what point t writes back is block t of `Attend.mixed` and of `Attend.weights` of the argument arrays
  (the body's two stored rows read entry by entry), the 32 blocks cover each result array, and after the run each result
  array is that function of the arguments as launched.
-/
import proofs.«161140_j1580547970581_1_alg».proof.Proof.Gen.KernelIdeal.Value
import proofs.«161140_j1580547970581_1_alg».proof.Proof.KernelRow
import proofs.«161140_j1580547970581_1_alg».proof.Proof.Attend
import Idealize.ShloMosaic.Lib.Pipeline.Value
import Idealize.ShloMosaic.Lib.ValueIdx

noncomputable section

open scoped BigOperators

namespace Cert.KernelIdeal.Whole

open Cert.KernelIdeal Cert.KernelIdeal.Gen Cert.KernelIdeal.Value Cert.KernelIdeal.Row
open Idealize.ShloMosaic Idealize.ShloMosaic.TcCoe Idealize.ShloMosaic.ValueIdx Idealize.SL.Sem Cert.Attend
open Idealize.ShloMosaic.Pipeline (Dat)

variable (m : (ℓ : Loc nD τ sig) → Buf (Elt Ideal) ℓ) (ρ : Dev nD → PrngReg)

/-! ## The blocks the body reads -/

theorem hz : (![0, 0, 0] : Fin 3 → Nat) = fun _ => 0 := funext fun a => by fin_cases a <;> rfl

/-- The four index maps, decided over the 32 grid points: every window's block index is the point's number on the batch
    axis and zero on the other two. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The batch entry a grid point works on. -/
abbrev entry (t : Fin cfg0.N) : Fin 32 := ⟨t.val, lt_of_lt_of_eq t.isLt N_0⟩

/-- The query block at point `t` is query row `t` of the argument. -/
theorem qblock_apply (c : Dev nD) (t : Fin cfg0.N) (h : Fin 1024) :
    (iblk m c 0 t : Vec Ideal S1x1x1024 .f32) (ix3 0 0 h) = (V m c main_arg0 : S32x1x1024.Idx → EReal) (ix3 (entry t) 0 h) := by
  obtain ⟨e0, e1, e2, -⟩ := idx_facts t
  show V m c main_arg0 (((cfg0.win 0).blk t).view.emb (ix3 0 0 h)) = _
  refine congrArg (V m c main_arg0) (funext fun d => Fin.ext ?_)
  match d with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 1024 + 1 * h.val = h.val; omega

/-- The key block at point `t` is the key rows of batch entry `t`. -/
theorem kblock_apply (c : Dev nD) (t : Fin cfg0.N) (s : Fin 4096) (h : Fin 1024) :
    (iblk m c 1 t : Vec Ideal S1x4096x1024 .f32) (ix3 0 s h) = (V m c main_arg1 : S32x4096x1024.Idx → EReal) (ix3 (entry t) s h) := by
  obtain ⟨-, -, -, e0, e1, e2, -⟩ := idx_facts t
  show V m c main_arg1 (((cfg0.win 1).blk t).view.emb (ix3 0 s h)) = _
  refine congrArg (V m c main_arg1) (funext fun d => Fin.ext ?_)
  match d with
  | ⟨0, _⟩ => show win0_1.index t (0 : Fin 3) * 1 + 1 * 0 = t.val; omega
  | ⟨1, _⟩ => show win0_1.index t (1 : Fin 3) * 4096 + 1 * s.val = s.val; omega
  | ⟨2, _⟩ => show win0_1.index t (2 : Fin 3) * 1024 + 1 * h.val = h.val; omega

/-! ## What a point stores is a block of the whole-array functions -/

/-- Entry `y` of the attention row a point stores, for blocks that are batch entry `b`'s rows of two arrays, is the weights
    array at an index on batch entry `b` with `y`'s lane. -/
theorem attn_block (x0 : Vec Ideal S1x1x1024 .f32) (x1 : Vec Ideal S1x4096x1024 .f32)
    (a0 : S32x1x1024.Idx → EReal) (a1 : S32x4096x1024.Idx → EReal) (b : Fin 32)
    (h0 : ∀ h : Fin 1024, x0 (ix3 0 0 h) = a0 (ix3 b 0 h))
    (h1 : ∀ (s : Fin 4096) (h : Fin 1024), x1 (ix3 0 s h) = a1 (ix3 b s h))
    (y : S1x1x4096.Idx) (i : S32x1x4096.Idx) (hi0 : (i 0).val = b.val) (hi2 : (i 2).val = (y 2).val) :
    k0_pay2 x0 x1 y = weights a0 a1 i := by
  obtain ⟨ya, yb, s, rfl⟩ : ∃ (ya yb : Fin 1) (s : Fin 4096), y = ix3 ya yb s := ⟨y 0, y 1, y 2, eq_ix3 y⟩
  obtain ⟨ib, ia, is, rfl⟩ : ∃ (ib : Fin 32) (ia : Fin 1) (is : Fin 4096), i = ix3 ib ia is := ⟨i 0, i 1, i 2, eq_ix3 i⟩
  obtain rfl : ib = b := Fin.ext hi0
  obtain rfl : is = s := Fin.ext hi2
  rw [pay2_apply, weights_apply,
    show (fun h : Fin 1024 => x0 (ix3 0 0 h)) = fun h => a0 (ix3 ib 0 h) from funext h0,
    show (fun (s : Fin 4096) (h : Fin 1024) => x1 (ix3 0 s h)) = fun s h => a1 (ix3 ib s h) from funext fun s => funext (h1 s)]

/-- The same for the output row and the mixed array. -/
theorem out_block (x0 : Vec Ideal S1x1x1024 .f32) (x1 : Vec Ideal S1x4096x1024 .f32)
    (a0 : S32x1x1024.Idx → EReal) (a1 : S32x4096x1024.Idx → EReal) (b : Fin 32)
    (h0 : ∀ h : Fin 1024, x0 (ix3 0 0 h) = a0 (ix3 b 0 h))
    (h1 : ∀ (s : Fin 4096) (h : Fin 1024), x1 (ix3 0 s h) = a1 (ix3 b s h))
    (y : S1x1x1024.Idx) (i : S32x1x1024.Idx) (hi0 : (i 0).val = b.val) (hi2 : (i 2).val = (y 2).val) :
    k0_pay3 x0 x1 y = mixed a0 a1 i := by
  obtain ⟨ya, yb, h, rfl⟩ : ∃ (ya yb : Fin 1) (h : Fin 1024), y = ix3 ya yb h := ⟨y 0, y 1, y 2, eq_ix3 y⟩
  obtain ⟨ib, ia, ih, rfl⟩ : ∃ (ib : Fin 32) (ia : Fin 1) (ih : Fin 1024), i = ix3 ib ia ih := ⟨i 0, i 1, i 2, eq_ix3 i⟩
  obtain rfl : ib = b := Fin.ext hi0
  obtain rfl : ih = h := Fin.ext hi2
  rw [pay3_apply, mixed_apply,
    show (fun h : Fin 1024 => x0 (ix3 0 0 h)) = fun h => a0 (ix3 ib 0 h) from funext h0,
    show (fun (s : Fin 4096) (h : Fin 1024) => x1 (ix3 0 s h)) = fun s h => a1 (ix3 ib s h) from funext fun s => funext (h1 s)]

/-- What point `t` writes back to the weights array is block `t` of `weights` of the argument arrays. -/
theorem flushed3_eq (c : Dev nD) (t : Fin cfg0.N) :
    (dats m 0 c).flushed 3 t = ((cfg0.win 3).blk t).view.read (Elt Ideal) (weights (V m c main_arg0) (V m c main_arg1)) := by
  rw [Value.flushed3]
  unfold out0_3
  rw [View.canon_unit_zero hz]
  simp only [View.ld_unit_zero (S := S1x1x1024) hz, View.ld_unit_zero (S := S1x4096x1024) hz]
  obtain ⟨-, -, -, -, -, -, -, -, -, e0, e1, e2⟩ := idx_facts t
  funext j
  show k0_pay2 (iblk m c 0 t) (iblk m c 1 t) j = weights (V m c main_arg0) (V m c main_arg1) (((cfg0.win 3).blk t).view.emb j)
  refine attn_block (iblk m c 0 t) (iblk m c 1 t) (V m c main_arg0) (V m c main_arg1) (entry t) (qblock_apply m c t) (kblock_apply m c t) j _ ?_ ?_
  · show win0_3.index t (0 : Fin 3) * 1 + 1 * (j 0).val = t.val
    have hj : (j 0).val < 1 := (j 0).isLt
    omega
  · show win0_3.index t (2 : Fin 3) * 4096 + 1 * (j 2).val = (j 2).val
    omega

/-- What point `t` writes back to the output array is block `t` of `mixed` of the argument arrays. -/
theorem flushed2_eq (c : Dev nD) (t : Fin cfg0.N) :
    (dats m 0 c).flushed 2 t = ((cfg0.win 2).blk t).view.read (Elt Ideal) (mixed (V m c main_arg0) (V m c main_arg1)) := by
  rw [Value.flushed2]
  unfold out0_2
  rw [View.canon_unit_zero hz]
  simp only [View.ld_unit_zero (S := S1x1x1024) hz, View.ld_unit_zero (S := S1x4096x1024) hz]
  obtain ⟨-, -, -, -, -, -, e0, e1, e2, -⟩ := idx_facts t
  funext j
  show k0_pay3 (iblk m c 0 t) (iblk m c 1 t) j = mixed (V m c main_arg0) (V m c main_arg1) (((cfg0.win 2).blk t).view.emb j)
  refine out_block (iblk m c 0 t) (iblk m c 1 t) (V m c main_arg0) (V m c main_arg1) (entry t) (qblock_apply m c t) (kblock_apply m c t) j _ ?_ ?_
  · show win0_2.index t (0 : Fin 3) * 1 + 1 * (j 0).val = t.val
    have hj : (j 0).val < 1 := (j 0).isLt
    omega
  · show win0_2.index t (2 : Fin 3) * 1024 + 1 * (j 2).val = (j 2).val
    omega

/-! ## The blocks cover the arrays -/

theorem mem_blk3 (t : Fin cfg0.N) (i : S32x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v0_1).slice (win0_3.rect t)).set ↔ _
  rw [View.set_slice_whole, Rect.mem_set_unit]
  exact Iff.rfl

theorem mem_blk2 (t : Fin cfg0.N) (i : S32x1x1024.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_v0_0).slice (win0_2.rect t)).set ↔ _
  rw [View.set_slice_whole, Rect.mem_set_unit]
  exact Iff.rfl

/-- Every index of the weights array lies in the block of the point numbered by its batch coordinate. -/
theorem covered3 (i : S32x1x4096.Idx) : ∃ t : Fin cfg0.N, (cfg0.win 3).flush t = true ∧ i ∈ ((cfg0.win 3).blk t).view.set := by
  have hi0 : (i 0).val < 32 := (i 0).isLt
  have hi1 : (i 1).val < 1 := (i 1).isLt
  have hi2 : (i 2).val < 4096 := (i 2).isLt
  obtain ⟨t, et⟩ : ∃ t : Fin cfg0.N, t.val = (i 0).val := ⟨⟨(i 0).val, lt_of_lt_of_eq hi0 N_0.symm⟩, rfl⟩
  obtain ⟨-, -, -, -, -, -, -, -, -, e0, e1, e2⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 4096 ≤ (i 2).val ∧ (i 2).val < win0_3.index t (2 : Fin 3) * 4096 + 4096; omega

/-- Every index of the output array lies in the block of the point numbered by its batch coordinate. -/
theorem covered2 (i : S32x1x1024.Idx) : ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 1024 := (i 2).isLt
  obtain ⟨t, et⟩ : ∃ t : Fin cfg0.N, t.val = (i 0).val := ⟨⟨(i 0).val, lt_of_lt_of_eq hi0 N_0.symm⟩, rfl⟩
  obtain ⟨-, -, -, -, -, -, e0, e1, e2, -⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1024 ≤ (i 2).val ∧ (i 2).val < win0_2.index t (2 : Fin 3) * 1024 + 1024; omega

/-! ## The arrays after the run -/

/-- The weights array ends holding `weights` of the two arguments as launched. -/
theorem final3 (c : Dev nD) :
    (dats m 0 c).arrAt 3 cfg0.N = weights (m ((c : Thread nD τ).loc main_arg0)) (m ((c : Thread nD τ).loc main_arg1)) :=
  (dats m 0 c).arrAt_eq_of_cover 3 (weights (V m c main_arg0) (V m c main_arg1)) (fun t _ => flushed3_eq m c t) covered3

/-- The output array ends holding `mixed` of the two arguments as launched. -/
theorem final2 (c : Dev nD) :
    (dats m 0 c).arrAt 2 cfg0.N = mixed (m ((c : Thread nD τ).loc main_arg0)) (m ((c : Thread nD τ).loc main_arg1)) :=
  (dats m 0 c).arrAt_eq_of_cover 2 (mixed (V m c main_arg0) (V m c main_arg1)) (fun t _ => flushed2_eq m c t) covered2

/-- The kernel's run, read: the two result arrays at `mixed` and `weights` of the arguments, the arguments unchanged. -/
theorem run : θ_run defs (onTc (τ := τ) (main (F := Ideal))) ⟨m, fun _ => 0, ρ⟩ fun r => ∀ c : Dev nD,
      r.2.mem ((c : Thread nD τ).loc main_v0_0) = mixed (m ((c : Thread nD τ).loc main_arg0)) (m ((c : Thread nD τ).loc main_arg1))
      ∧ r.2.mem ((c : Thread nD τ).loc main_v0_1) = weights (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2⟩)
    (Value.run_blocks m ρ)

end Cert.KernelIdeal.Whole

end
-- ==== Proof.ReferenceRow.lean ====
/-
  The reference, entry by entry, at the extended reals.

  For each batch entry `b` the reference takes the inner products of query row `b` with key rows (b, s) (a `dot_general`),
  the softmax of those 4096 scores along the last axis (a max-reduce from −∞ joined once more with −∞, the
  exponentials of the distances below it, their sum from 0, the quotient), and tanh of the product of the softmax row
  with the key rows. The generated reading gives each operation at an index; the max-reduce, which it leaves whole, is
  read here as the fold of `max` over the reduced axis. Entry (b, ·, s) of the weights is `Attend.weight` and entry
  (b, ·, h) of the output `Attend.blend` of batch entry b's query row and key rows.
-/
import proofs.«161140_j1580547970581_1_alg».proof.Proof.Gen.ReferenceIdeal.Read
import proofs.«161140_j1580547970581_1_alg».proof.Proof.Attend
import Idealize.ShloMosaic.Lib.Pipeline.Value
import Idealize.ShloMosaic.Lib.ValueIdx
import Idealize.ShloMosaic.PureOps.Ideal.Laws

noncomputable section

open scoped BigOperators

namespace Cert.ReferenceIdeal.Row

open Cert.ReferenceIdeal Cert.ReferenceIdeal.Gen Cert.ReferenceIdeal.Read Idealize.ShloMosaic Idealize.ShloMosaic.ValueIdx Cert.Attend

variable (x0 : (⟨S32x1x1024, .f32⟩ : BufTy).Contents (Elt Ideal)) (x1 : (⟨S32x4096x1024, .f32⟩ : BufTy).Contents (Elt Ideal))

/-- Batch entry `b`'s query row. -/
abbrev qOf (b : Fin 32) : Fin 1024 → EReal := fun h => x0 (ix3 b 0 h)
/-- Batch entry `b`'s key rows. -/
abbrev kOf (b : Fin 32) : Fin 4096 → Fin 1024 → EReal := fun s h => x1 (ix3 b s h)

/-- The first `dot_general`: entry (b, ·, s) is the inner product of batch b's query row with its key row s. -/
theorem scores_apply (b : Fin 32) (a : Fin 1) (s : Fin 4096) :
    val_main_v0 (F := Ideal) x0 x1 (ix3 b a s) = score (qOf x0 b) (kOf x1 b) s := by
  rw [val_main_v0_apply]
  unfold score
  refine Finset.sum_congr rfl fun k _ => ?_
  refine congrArg₂ (· * ·) (congrArg x0 (funext fun d => Fin.ext ?_)) (congrArg x1 (funext fun d => Fin.ext ?_))
  · match d with
    | ⟨0, _⟩ => rfl
    | ⟨1, _⟩ => exact Fin.val_eq_zero a
    | ⟨2, _⟩ => rfl
  · match d with
    | ⟨0, _⟩ => rfl
    | ⟨1, _⟩ => rfl
    | ⟨2, _⟩ => rfl

/-- The host's max-reduce over the last axis, which the generated reading leaves whole: the fold of `max` from the floor over
    that axis's coordinates. -/
theorem rowMax_apply (b : Fin 32) (a : Fin 1) :
    val_main_v1 (F := Ideal) x0 x1 (ix2 b a)
      = (Finset.univ : Finset (Fin 4096)).fold max floor (fun s => val_main_v0 (F := Ideal) x0 x1 (ix3 b 0 s)) := by
  unfold val_main_v1
  generalize val_main_v0 (F := Ideal) x0 x1 = y
  have hR : S32x1x4096.Reduces [2] S32x1 := by decide
  have h1 := Host.reduce_eq_fold_single (FloatOps.maximumf (F := Ideal) (φ := .f32)) y (val_main_cst (F := Ideal)) reducesTo_S32x1x4096_S32x1_d2 hR h_S_ (ix2 b a)
  refine h1.trans ?_
  refine congrArg (fun f => (Finset.univ : Finset (Fin 4096)).fold max floor f) (funext fun s => ?_)
  refine congrArg y (funext fun d => Fin.ext ?_)
  match d with
  | ⟨0, _⟩ => rfl
  | ⟨1, _⟩ => exact Fin.val_eq_zero a
  | ⟨2, _⟩ => rfl

/-- The peak of batch b's scores, as the reference lays it along the row. -/
theorem peak_apply (b : Fin 32) (a : Fin 1) (s : Fin 4096) :
    val_main_v5 (F := Ideal) x0 x1 (ix3 b a s) = peakOf (score (qOf x0 b) (kOf x1 b)) := by
  rw [val_main_v5_apply, val_main_v4_apply, val_main_v3_apply]
  have e : idx_main_v4 (idx_main_v5 (ix3 b a s)) = ix2 b 0 := funext fun d => Fin.ext (by
    match d with
    | ⟨0, _⟩ => rfl
    | ⟨1, _⟩ => rfl)
  rw [e, rowMax_apply]
  unfold peakOf
  refine congrArg₂ max rfl ?_
  exact congrArg (fun f => (Finset.univ : Finset (Fin 4096)).fold max floor f) (funext fun s' => scores_apply x0 x1 b 0 s')

/-- The exponentials. -/
theorem lift_apply (b : Fin 32) (a : Fin 1) (s : Fin 4096) :
    val_main_v7 (F := Ideal) x0 x1 (ix3 b a s) = liftOf (score (qOf x0 b) (kOf x1 b)) s := by
  rw [val_main_v7_apply, val_main_v6_apply, peak_apply, scores_apply]
  rfl

/-- Their sum along the row. -/
theorem total_apply (b : Fin 32) (a : Fin 1) (s : Fin 4096) :
    val_main_v10 (F := Ideal) x0 x1 (ix3 b a s) = ∑ s' : Fin 4096, liftOf (score (qOf x0 b) (kOf x1 b)) s' := by
  rw [val_main_v10_apply, val_main_v9_apply, val_main_v8_apply]
  have z : val_main_cst_1 (F := Ideal) (Shape.Idx.first h_S_) = 0 := Ideal.ofBits_zero_f32
  rw [z, zero_add]
  refine Finset.sum_congr rfl fun k _ => ?_
  have e : idx_main_v8 (idx_main_v9 (idx_main_v10 (ix3 b a s))) k = ix3 b 0 k := funext fun d => Fin.ext (by
    match d with
    | ⟨0, _⟩ => rfl
    | ⟨1, _⟩ => rfl
    | ⟨2, _⟩ => rfl)
  rw [e, lift_apply]

/-- The reference's attention weights: entry (b, ·, s) is the softmax weight batch b's query row gives its key row s. -/
theorem attn_apply (b : Fin 32) (a : Fin 1) (s : Fin 4096) :
    val_main_v11 (F := Ideal) x0 x1 (ix3 b a s) = weight (qOf x0 b) (kOf x1 b) s := by
  rw [val_main_v11_apply, lift_apply, total_apply]
  rfl

/-- The reference's output: entry (b, ·, h) is the weighted mix of batch b's key rows at h, through tanh. -/
theorem out_apply (b : Fin 32) (a : Fin 1) (h : Fin 1024) :
    val_main_v13 (F := Ideal) x0 x1 (ix3 b a h) = blend (qOf x0 b) (kOf x1 b) h := by
  rw [val_main_v13_apply, val_main_v12_apply]
  unfold blend
  refine congrArg Ideal.tanh (Finset.sum_congr rfl fun k _ => ?_)
  have el : lidx_main_v12 (ix3 b a h) k = ix3 b a k := funext fun d => Fin.ext (by
    match d with
    | ⟨0, _⟩ => rfl
    | ⟨1, _⟩ => rfl
    | ⟨2, _⟩ => rfl)
  have er : ridx_main_v12 (ix3 b a h) k = ix3 b k h := funext fun d => Fin.ext (by
    match d with
    | ⟨0, _⟩ => rfl
    | ⟨1, _⟩ => rfl
    | ⟨2, _⟩ => rfl)
  rw [el, er, attn_apply]

/-! ## The two results as whole arrays -/

/-- The reference's second result is `weights` of its arguments. -/
theorem attn_eq : val_main_v11 (F := Ideal) x0 x1 = weights x0 x1 := funext fun i => by
  obtain ⟨b, a, s, rfl⟩ : ∃ (b : Fin 32) (a : Fin 1) (s : Fin 4096), i = ix3 b a s := ⟨i 0, i 1, i 2, eq_ix3 i⟩
  exact attn_apply x0 x1 b a s

/-- The reference's first result is `mixed` of its arguments. -/
theorem out_eq : val_main_v13 (F := Ideal) x0 x1 = mixed x0 x1 := funext fun i => by
  obtain ⟨b, a, h, rfl⟩ : ∃ (b : Fin 32) (a : Fin 1) (h : Fin 1024), i = ix3 b a h := ⟨i 0, i 1, i 2, eq_ix3 i⟩
  exact out_apply x0 x1 b a h

end Cert.ReferenceIdeal.Row

end
-- ==== Proof.lean ====
/-
  The certificate: the Pallas attention kernel (grid over the 32 batch entries; per entry the scores of one query row
  against 4096 key rows, their softmax, and tanh of the softmax-weighted mix of the rows) against its jnp reference.

  Over the extended reals both programs compute, for batch entry b, the same two expressions of query row b and key rows
  (b, ·): the softmax weights (`Attend.weights`) and tanh of the weighted mix (`Attend.mixed`). The kernel's rounding
  of its operands to bf16 is the identity there, its matrix products into zero accumulators are the reference's
  `dot_general`s, and its lane reductions are the reference's reduces; no algebraic law beyond `0 + x = x` and the
  commutativity of `+` and `max` is used, so the precondition is never opened.
  The three frames are the generated frame certificates (the reference's from its generated run); `preserves` is trivial,
  the idealization having rewritten nothing.
-/
import proofs.«161140_j1580547970581_1_alg».proof.Defs
import proofs.«161140_j1580547970581_1_alg».proof.Proof.Gen.Kernel
import proofs.«161140_j1580547970581_1_alg».proof.Proof.Gen.Kernel.Skeleton
import proofs.«161140_j1580547970581_1_alg».proof.Proof.Gen.Kernel.Launch
import proofs.«161140_j1580547970581_1_alg».proof.Proof.Gen.Kernel.Points
import proofs.«161140_j1580547970581_1_alg».proof.Proof.Gen.Kernel.Frame
import proofs.«161140_j1580547970581_1_alg».proof.Proof.Gen.KernelIdeal
import proofs.«161140_j1580547970581_1_alg».proof.Proof.Gen.KernelIdeal.Skeleton
import proofs.«161140_j1580547970581_1_alg».proof.Proof.Gen.KernelIdeal.Launch
import proofs.«161140_j1580547970581_1_alg».proof.Proof.Gen.KernelIdeal.Points
import proofs.«161140_j1580547970581_1_alg».proof.Proof.Gen.KernelIdeal.Frame
import proofs.«161140_j1580547970581_1_alg».proof.Proof.Gen.ReferenceIdeal
import proofs.«161140_j1580547970581_1_alg».proof.Proof.Gen.Pre_finite_inputs
import proofs.«161140_j1580547970581_1_alg».proof.Proof.Gen.KernelIdeal.Value
import proofs.«161140_j1580547970581_1_alg».proof.Proof.Gen.ReferenceIdeal.Run
import proofs.«161140_j1580547970581_1_alg».proof.Proof.Gen.ReferenceIdeal.Read
import proofs.«161140_j1580547970581_1_alg».proof.Proof.KernelWhole
import proofs.«161140_j1580547970581_1_alg».proof.Proof.ReferenceRow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The kernel's two result arrays end at `mixed` and `weights` of its arguments; the reference's two results are those
    same functions of arguments that agree. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2, Cert.ReferenceIdeal.Read.val_main_v13_eq]
    exact Cert.ReferenceIdeal.Row.out_eq _ _
  · rw [(hagree c).1, (hagree c).2, Cert.ReferenceIdeal.Read.val_main_v11_eq]
    exact Cert.ReferenceIdeal.Row.attn_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
